-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024x1024 : Shape := ⟨2, ![1024, 1024]⟩
abbrev S1024 : Shape := ⟨1, ![1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x8x1024 .f32) (main_arg1 : FVec F S1024x1024 .f32) (main_arg2 : FVec F S1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x8x1024 : Shape := ⟨3, ![4096, 8, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S32768x1 : Shape := ⟨2, ![32768, 1]⟩
abbrev S1024x1 : Shape := ⟨2, ![1024, 1]⟩
abbrev S4096x8x1 : Shape := ⟨3, ![4096, 8, 1]⟩

abbrev nBuf : Space → Nat
  | .hbm => 9
  | .vmem => 6
  | .smem => 0
  | _ => 0

abbrev bufTy : (tb : Table) → Fin (tcTables nBuf tb) → BufTy
  | .hbm, ⟨0, _⟩ => ⟨S4096x8x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S32768x1, .f32⟩
  | .hbm, ⟨8, _⟩ => ⟨S4096x8x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x8x1024_S32768x1024 : S4096x8x1024.ShapeCasts S32768x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1024 : S1024x1.Reduces [1] S1024
  inb_S1024x1_S1024x1_0_0 : ∀ a, (![0, 0] : Fin 2 → Nat) a + S1024x1.size a ≤ S1024x1.size a
  h_S1024x1 : 0 < S1024x1.numel
  shapeCasts_S32768x1_S4096x8x1 : S32768x1.ShapeCasts S4096x8x1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4096x8 : Shape := ⟨2, ![4096, 8]⟩
abbrev S4096x8x1 : Shape := ⟨3, ![4096, 8, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024x1024, .f32⟩
  | .hbm, ⟨2, _⟩ => ⟨S1024, .f32⟩
  | .hbm, ⟨3, _⟩ => ⟨S4096x8x1024, .f32⟩
  | .hbm, ⟨4, _⟩ => ⟨S1x1x1024, .f32⟩
  | .hbm, ⟨5, _⟩ => ⟨S4096x8x1024, .f32⟩
  | .hbm, ⟨6, _⟩ => ⟨S4096x8x1024, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8, .f32⟩
  | .hbm, ⟨20, _⟩ => ⟨S4096x8x1, .f32⟩
  | .hbm, ⟨21, _⟩ => ⟨S4096x8x1, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  reducesTo_S4096x8x1_S4096x8_d2 : S4096x8x1.ReducesTo [2] S4096x8
  bcast_S_S4096x8 : S_.BroadcastsInDim S4096x8 (![] : Fin 0 → Fin S4096x8.rank)
  dot_S4096x8x1024_S1024x1024_S4096x8x1024_2_1_01_0_n_n_wf : DotDims.WF S4096x8x1024 S1024x1024 S4096x8x1024 [2] [1] [0, 1] [0] [] []

variable [Facts₀]

def dot_S4096x8x1024_S1024x1024_S4096x8x1024_2_1_01_0_n_n : DotDims S4096x8x1024 S1024x1024 S4096x8x1024 where
  lhsContracting := [2]
  rhsContracting := [1]
  lhsNonContracting := [0, 1]
  rhsNonContracting := [0]
  lhsBatch := []
  rhsBatch := []
  wf := dot_S4096x8x1024_S1024x1024_S4096x8x1024_2_1_01_0_n_n_wf

class Facts : Prop extends Facts₀ where

variable [Facts]
-- ==== Proof.RowSoftmax.lean ====
/-
  The function both programs compute, stated once, over the extended reals.

  The input is viewed as 32768 rows of length 1024 (row `8 * s + b` is position `(s, b)` of the
  [4096, 8, 1024] array). A row `X`, a weight matrix `W` (output feature `o`, input feature `h`) and
  a bias `b` give the row's SCORE
      score X W b = ∑ o, ((∑ h, X h * W o h) + b o),
  the linear layer's 1024 outputs summed. The result at that row is the softmax of the score over a set
  with ONE element: the maximum of the set is the score itself, so the numerator is `exp (s - s)`, and
  the normalising sum has that one term, so the result is `exp (s - s) / exp (s - s)`.

  Both programs spell the maximum as a fold of `max` from −∞ and the normalising sum as a sum from 0;
  the facts below read such a fold and such a sum over a one-element index set.
-/
import Idealize.ShloMosaic.PureOps.Ideal
import Idealize.ShloMosaic.PureOps.Ideal.Laws
import Idealize.ShloMosaic.Lib.ValueIdx

noncomputable section

open scoped BigOperators

namespace Cert.RowSoftmax

open Idealize.ShloMosaic Idealize.ShloMosaic.ValueIdx

/-- A row's score: the sum over the output features of the linear layer's value there. -/
def score (X : Fin 1024 → EReal) (W : Fin 1024 → Fin 1024 → EReal) (b : Fin 1024 → EReal) : EReal :=
  ∑ o : Fin 1024, ((∑ h : Fin 1024, X h * W o h) + b o)

/-- The softmax of `s` over the one-element set `{s}`. -/
def soft (s : EReal) : EReal := Ideal.div (Ideal.exp (s - s)) (Ideal.exp (s - s))

/-- The f32 pattern of −∞ is the bottom of the extended reals, so it is absorbed by `max`. -/
theorem max_negInf (s : EReal) : max s (Ideal.ofBits .f32 0xFF800000#32) = s := by
  rw [max_comm]; simp [Ideal.ofBits, Ideal.ieee]

theorem negInf_max (s : EReal) : max (Ideal.ofBits .f32 0xFF800000#32) s = s := by
  simp [Ideal.ofBits, Ideal.ieee]

/-- The maximum, from −∞, over a one-element index set is the element. -/
theorem fold_max_one (f : Fin 1 → EReal) :
    (Finset.univ : Finset (Fin 1)).fold max (Ideal.ofBits .f32 0xFF800000#32) f = f 0 := by
  rw [Finset.univ_unique, Finset.fold_singleton]
  exact max_negInf _

/-- The sum over a one-element index set is the element. -/
theorem sum_one (f : Fin 1 → EReal) : ∑ k : Fin 1, f k = f 0 := Fin.sum_univ_one f

/-- The whole result, index by index: position `(s, b)` holds the one-element softmax of the score of
    row `(s, b)` of the input. -/
def G (x : (⟨3, ![4096, 8, 1024]⟩ : Shape).Idx → EReal) (w : (⟨2, ![1024, 1024]⟩ : Shape).Idx → EReal)
    (b : (⟨1, ![1024]⟩ : Shape).Idx → EReal) : (⟨3, ![4096, 8, 1]⟩ : Shape).Idx → EReal :=
  fun i => soft (score (fun h => x (ix3 (i 0) (i 1) h)) (fun o h => w (ix2 o h)) (fun o => b (ix1 o)))

end Cert.RowSoftmax

end
-- ==== Proof.RefRow.lean ====
/-
  The reference program's result is `G`.

  The reference contracts the whole [4096, 8, 1024] input with the weights over the input features, adds
  the bias along the output features, sums over the output features from 0 (the score of each position
  `(s, b)`), and then takes the softmax over a trailing axis of length one: a maximum from −∞ over that
  axis (once as a reduction, once more against a splat of −∞), a subtraction, an exponential, a sum from
  0 over that axis, a quotient. Read at an index, the first part is `score` of row `(s, b)` and the
  second is `soft` of it.
-/
import proofs.«139557_j48284022342318_1_alg».proof.Proof.Gen.ReferenceIdeal.Read
import proofs.«139557_j48284022342318_1_alg».proof.Proof.RowSoftmax

noncomputable section

open scoped BigOperators

namespace Cert.RefRow

open Cert.ReferenceIdeal Cert.ReferenceIdeal.Gen Cert.ReferenceIdeal.Read Cert.RowSoftmax
open Idealize.ShloMosaic Idealize.ShloMosaic.ValueIdx

variable (x0 : (⟨S4096x8x1024, .f32⟩ : BufTy).Contents (Elt Ideal)) (x1 : (⟨S1024x1024, .f32⟩ : BufTy).Contents (Elt Ideal))
  (x2 : (⟨S1024, .f32⟩ : BufTy).Contents (Elt Ideal))

/-- The sum over the output features, at position `(s, b)`, is that row's score. -/
theorem score_at (j : S4096x8.Idx) :
    val_main_v4 (F := Ideal) x0 x1 x2 j
      = score (fun h => x0 (ix3 (j 0) (j 1) h)) (fun o h => x1 (ix2 o h)) (fun o => x2 (ix1 o)) := by
  rw [val_main_v4_apply, val_main_cst_apply]
  show Ideal.ofBits .f32 0x00000000#32 + _ = _
  rw [Ideal.ofBits_zero_f32, zero_add]
  unfold score
  refine Finset.sum_congr rfl fun o _ => ?_
  rw [val_main_v3_apply, val_main_v0_apply, val_main_v2_apply, val_main_v1_apply]
  show (∑ k : Fin 1024, x0 (lidx_main_v0 (idx_main_v4 j o) k) * x1 (ridx_main_v0 (idx_main_v4 j o) k))
      + x2 (idx_main_v1 (idx_main_v2 (idx_main_v4 j o))) = _
  have el : ∀ k : Fin 1024, lidx_main_v0 (idx_main_v4 j o) k = ix3 (j 0) (j 1) k := fun k =>
    funext fun a => Fin.ext (by match a with | ⟨0, _⟩ => rfl | ⟨1, _⟩ => rfl | ⟨2, _⟩ => rfl)
  have er : ∀ k : Fin 1024, ridx_main_v0 (idx_main_v4 j o) k = ix2 o k := fun k =>
    funext fun a => Fin.ext (by match a with | ⟨0, _⟩ => rfl | ⟨1, _⟩ => rfl)
  have eb : idx_main_v1 (idx_main_v2 (idx_main_v4 j o)) = ix1 o :=
    funext fun a => Fin.ext (by match a with | ⟨0, _⟩ => rfl)
  rw [eb]
  exact congrArg (· + x2 (ix1 o)) (Finset.sum_congr rfl fun k _ => by rw [el k, er k]; rfl)

theorem reduces_last : S4096x8x1.Reduces [2] S4096x8 := by decide

/-- Putting the one coordinate of the trailing axis back under `(s, b)` and forgetting it again gives `(s, b)`. -/
theorem idx_lift (j : S4096x8.Idx) (k : Fin (S4096x8x1.size 2)) : idx_main_v5 (reduces_last.lift j k) = j :=
  funext fun a => Fin.ext (by match a with | ⟨0, _⟩ => rfl | ⟨1, _⟩ => rfl)

/-- The maximum from −∞ over the trailing axis of length one, at `(s, b)`, is the score there. -/
theorem max_at (j : S4096x8.Idx) :
    val_main_v6 (F := Ideal) x0 x1 x2 j = val_main_v4 (F := Ideal) x0 x1 x2 j := by
  unfold val_main_v6
  rw [Host.reduce_eq_fold_single FloatOps.maximumf _ _ reducesTo_S4096x8x1_S4096x8_d2 reduces_last h_S_ j]
  refine (fold_max_one (fun k : Fin 1 => val_main_v5 (F := Ideal) x0 x1 x2 (reduces_last.lift j k))).trans ?_
  exact (val_main_v5_apply x0 x1 x2 _).trans (congrArg _ (idx_lift j _))

/-- The reference's result is `G` of its arguments. -/
theorem result_eq : val_main_v14 (F := Ideal) x0 x1 x2 = G x0 x1 x2 := by
  funext i
  have e5 : val_main_v5 (F := Ideal) x0 x1 x2 i = val_main_v4 (F := Ideal) x0 x1 x2 (idx_main_v5 i) :=
    val_main_v5_apply x0 x1 x2 i
  have e9 : val_main_v9 (F := Ideal) x0 x1 x2 i = val_main_v4 (F := Ideal) x0 x1 x2 (idx_main_v5 i) := by
    rw [val_main_v9_apply, val_main_v8_apply, val_main_v7_apply, val_main_cst_1_apply, max_at]
    exact negInf_max _
  have e11 : val_main_v11 (F := Ideal) x0 x1 x2 i
      = Ideal.exp (val_main_v4 (F := Ideal) x0 x1 x2 (idx_main_v5 i) - val_main_v4 (F := Ideal) x0 x1 x2 (idx_main_v5 i)) := by
    rw [val_main_v11_apply, val_main_v10_apply, e5, e9]; rfl
  have e13 : val_main_v13 (F := Ideal) x0 x1 x2 i = val_main_v11 (F := Ideal) x0 x1 x2 i := by
    rw [val_main_v13_apply, val_main_v12_apply, val_main_cst_2_apply]
    show Ideal.ofBits .f32 0x00000000#32 + _ = _
    rw [Ideal.ofBits_zero_f32, zero_add, sum_one]
    exact congrArg (val_main_v11 (F := Ideal) x0 x1 x2)
      (funext fun a => Fin.ext (by
        match a with
        | ⟨0, _⟩ => rfl
        | ⟨1, _⟩ => rfl
        | ⟨2, _⟩ => show (0 : Nat) = (i 2).val; have h1 : (i 2).val < 1 := (i 2).isLt; omega))
  rw [val_main_v14_apply, e13, e11, score_at]
  rfl

end Cert.RefRow

end
-- ==== Proof.KernelRow.lean ====
/-
  What the kernel body stores, read at a row.

  The body loads a block `x` of 1024 rows of the flattened input, the transposed weights `wt` (input
  feature `h` by output feature `o`) and the bias as one row. It multiplies `x` by `wt` into a zero
  accumulator, adds the bias row to every row, and sums each row over the output features: row `r` of
  that column is `score` of row `r` of `x` (the narrowing of the operands to a shorter float format is
  the identity on the extended reals, and the product into a zero accumulator is the plain sum of
  products). It then views the column as a [1024, 1] array and takes, along the axis of length one, a
  maximum from −∞ and a sum from 0: both return the entry itself, so what is stored at row `r` is
  `soft` of the row's score.
-/
import proofs.«139557_j48284022342318_1_alg».proof.Proof.Gen.KernelIdeal.Skeleton
import proofs.«139557_j48284022342318_1_alg».proof.Proof.RowSoftmax
import Idealize.ShloMosaic.Lib.Pipeline.Value
import Idealize.ShloMosaic.Lib.ValueIdx
import Idealize.ShloMosaic.PureOps.Ideal.Laws

noncomputable section

open scoped BigOperators

namespace Cert.KernelRow

open Cert.KernelIdeal Cert.KernelIdeal.Gen Cert.RowSoftmax
open Idealize.ShloMosaic Idealize.ShloMosaic.ValueIdx

/-! ## Indices -/

/-- Under row `r` of a reduction along the second axis, coordinate `k` of that axis is entry `(r, k)`. -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A column of length 1024 viewed as a [1024, 1] array: entry `(r, 0)` is entry `r`. -/
theorem col_at {α : Type} (v : S1024.Idx → α) (h1 : S1024.ShapeCasts S1024x1) (r : Fin 1024) (z : Fin 1) :
    shapeCast S1024x1 v h1 (ix2 r z) = v (ix1 r) :=
  shapeCast_apply v h1 (ix2 r z) (ix1 r) (by
    rw [Shape.rowMajor_val_one, Shape.rowMajor_val_two]
    show r.val = r.val * 1 + z.val
    have := z.isLt; omega)

/-! ## The product of the block with the transposed weights -/

theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry `(r, o)` of the product into a zero accumulator is the sum over the input features `h` of
    the left operand at `(r, h)` times the right at `(h, o)`. -/
theorem matmul_at (l r : FVec Ideal S1024x1024 .bf16) (i : S1024x1024.Idx) :
    matmul dot_S1024x1024_S1024x1024_S1024x1024_1_0_0_1_n_n none l r (constant S1024x1024 .f32 0x00000000#32) i
      = ∑ k : Fin 1024, l (ix2 (i 0) k) * r (ix2 k (i 1)) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx i ((ValueIdx.contrEquiv1 dot_S1024x1024_S1024x1024_S1024x1024_1_0_0_1_n_n 1024 rfl rfl).symm k) = ix2 (i 0) k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx i ((ValueIdx.contrEquiv1 dot_S1024x1024_S1024x1024_S1024x1024_1_0_0_1_n_n 1024 rfl rfl).symm k) = ix2 k (i 1) := funext fun a => Fin.ext (by
    match a with
    | ⟨0, _⟩ => exact (rhs_0 _ _).trans hk
    | ⟨1, _⟩ => exact rhs_1 _ _)
  rw [el, er]
  rfl

/-! ## The row sums -/

/-- Row `r` of the sum over the output features of product plus bias is the score of row `r` of the block. -/
theorem score_row (x0 : FVec Ideal S1024x1024 .f32) (x1 : FVec Ideal S1024x1024 .bf16) (x2 : FVec Ideal S1x1024 .f32)
    (hc : S1024x1024.ShapeCasts S1024x1024) (hlt : FTy.bits .bf16 < FTy.bits .f32) (hc2 : S1x1024.ShapeCasts S1x1024)
    (hb : S1x1024.Broadcasts S1024x1024) (hr : S1024x1024.Reduces [1] S1024) (hφ : FKind.Formats .f32)
    (hacc : (0x00000000#32 : BitVec 32) = FKind.add.neutral .f32 hφ) (r : Fin 1024) :
    multiReduction (F := Ideal) .add [1] S1024
        (addf (F := Ideal) (matmul (F := Ideal) dot_S1024x1024_S1024x1024_S1024x1024_1_0_0_1_n_n none (truncf (F := Ideal) .bf16 (shapeCast S1024x1024 x0 hc) hlt) (shapeCast S1024x1024 x1 hc)
            (constant (F := Ideal) S1024x1024 .f32 0x00000000#32))
          (broadcastTo S1024x1024 (shapeCast S1x1024 x2 hc2) hb)) 0x00000000#32 hr hφ hacc (ix1 r)
      = score (fun h => x0 (ix2 r h)) (fun o h => x1 (ix2 h o)) (fun o => x2 (ix2 0 o)) := by
  rw [Ideal.multiReduction_add_single, shapeCast_self, shapeCast_self, shapeCast_self]
  unfold score
  refine Finset.sum_congr rfl fun o _ => ?_
  rw [lift_row hr r o]
  show matmul (F := Ideal) dot_S1024x1024_S1024x1024_S1024x1024_1_0_0_1_n_n none (truncf (F := Ideal) .bf16 x0 hlt) x1 (constant (F := Ideal) S1024x1024 .f32 0x00000000#32) (ix2 r (⟨o.val, o.isLt⟩ : Fin 1024))
      + broadcastTo S1024x1024 x2 hb (ix2 r (⟨o.val, o.isLt⟩ : Fin 1024))
    = (∑ h : Fin 1024, x0 (ix2 r h) * x1 (ix2 h (⟨o.val, o.isLt⟩ : Fin 1024))) + x2 (ix2 0 (⟨o.val, o.isLt⟩ : Fin 1024))
  rw [matmul_at, broadcastTo_apply x2 hb (ix2 r (⟨o.val, o.isLt⟩ : Fin 1024)) (ix2 0 (⟨o.val, o.isLt⟩ : Fin 1024)) (fun a => by
    match a with
    | ⟨0, _⟩ => show (0 : Nat) = if (1 : Nat) = 1 then 0 else r.val; rw [if_pos rfl]
    | ⟨1, _⟩ => show o.val = if (1024 : Nat) = 1 then 0 else o.val; rw [if_neg (by decide)])]
  rfl

/-! ## The softmax over the axis of length one -/

/-- For any column `v` of row values: viewed as [1024, 1], minus its maximum from −∞ along the axis of
    length one, exponentiated, divided by the sum from 0 of that along the same axis — entry `(r, 0)`
    is the one-element softmax of `v r`. -/
theorem soft_row (v : FVec Ideal S1024 .f32) (h1 : S1024.ShapeCasts S1024x1) (hr : S1024x1.Reduces [1] S1024)
    (hφ : FKind.Formats .f32) (hmax : (0xFF800000#32 : BitVec 32) = FKind.maximumf.neutral .f32 hφ)
    (hadd : (0x00000000#32 : BitVec 32) = FKind.add.neutral .f32 hφ) (r : Fin 1024) (z : Fin 1) :
    divf (exp (subf (shapeCast S1024x1 v h1)
          (shapeCast S1024x1 (multiReduction .maximumf [1] S1024 (shapeCast S1024x1 v h1) 0xFF800000#32 hr hφ hmax) h1)))
        (shapeCast S1024x1 (multiReduction .add [1] S1024
          (exp (subf (shapeCast S1024x1 v h1)
            (shapeCast S1024x1 (multiReduction .maximumf [1] S1024 (shapeCast S1024x1 v h1) 0xFF800000#32 hr hφ hmax) h1)))
          0x00000000#32 hr hφ hadd) h1) (ix2 r z)
      = soft (v (ix1 r)) := by
  have emax : multiReduction .maximumf [1] S1024 (shapeCast S1024x1 v h1) 0xFF800000#32 hr hφ hmax (ix1 r) = v (ix1 r) := by
    rw [Ideal.multiReduction_maximumf_single]
    refine (fold_max_one (fun k : Fin 1 => shapeCast S1024x1 v h1 (hr.lift (ix1 r) k))).trans ?_
    exact (congrArg (shapeCast S1024x1 v h1) (lift_row hr r _)).trans (col_at v h1 r _)
  have enum : ∀ z' : Fin 1, exp (subf (shapeCast S1024x1 v h1)
        (shapeCast S1024x1 (multiReduction .maximumf [1] S1024 (shapeCast S1024x1 v h1) 0xFF800000#32 hr hφ hmax) h1)) (ix2 r z')
      = Ideal.exp (v (ix1 r) - v (ix1 r)) := fun z' => by
    show Ideal.exp (shapeCast S1024x1 v h1 (ix2 r z')
      - shapeCast S1024x1 (multiReduction .maximumf [1] S1024 (shapeCast S1024x1 v h1) 0xFF800000#32 hr hφ hmax) h1 (ix2 r z')) = _
    rw [col_at, col_at, emax]
  have eden : multiReduction .add [1] S1024
        (exp (subf (shapeCast S1024x1 v h1)
          (shapeCast S1024x1 (multiReduction .maximumf [1] S1024 (shapeCast S1024x1 v h1) 0xFF800000#32 hr hφ hmax) h1)))
        0x00000000#32 hr hφ hadd (ix1 r) = Ideal.exp (v (ix1 r) - v (ix1 r)) := by
    rw [Ideal.multiReduction_add_single]
    refine (sum_one (fun k : Fin 1 => exp (subf (shapeCast S1024x1 v h1)
      (shapeCast S1024x1 (multiReduction .maximumf [1] S1024 (shapeCast S1024x1 v h1) 0xFF800000#32 hr hφ hmax) h1)) (hr.lift (ix1 r) k))).trans ?_
    exact (congrArg _ (lift_row hr r _)).trans (enum _)
  show Ideal.div (exp (subf (shapeCast S1024x1 v h1)
        (shapeCast S1024x1 (multiReduction .maximumf [1] S1024 (shapeCast S1024x1 v h1) 0xFF800000#32 hr hφ hmax) h1)) (ix2 r z))
      (shapeCast S1024x1 (multiReduction .add [1] S1024
        (exp (subf (shapeCast S1024x1 v h1)
          (shapeCast S1024x1 (multiReduction .maximumf [1] S1024 (shapeCast S1024x1 v h1) 0xFF800000#32 hr hφ hmax) h1)))
        0x00000000#32 hr hφ hadd) h1 (ix2 r z)) = _
  rw [enum, col_at, eden]
  rfl

/-! ## The payload -/

/-- What the body stores at row `r` of its output block: the one-element softmax of the score of row `r` of
    the loaded input block, against the loaded transposed weights and bias row. -/
theorem pay_at (x0 : Vec Ideal S1024x1024 .f32) (x1 : Vec Ideal S1024x1024 .bf16) (x2 : Vec Ideal S1x1024 .f32)
    (r : Fin 1024) (z : Fin 1) :
    k0_pay1 (F := Ideal) x0 x1 x2 (ix2 r z)
      = soft (score (fun h => x0 (ix2 r h)) (fun o h => x1 (ix2 h o)) (fun o => x2 (ix2 0 o))) := by
  unfold k0_pay1
  exact (soft_row _ _ _ _ _ _ r z).trans (congrArg soft (score_row x0 x1 x2 _ _ _ _ _ _ _ r))

end Cert.KernelRow

end
-- ==== Proof.KernelArray.lean ====
/-
  From the blocks to the arrays: what the kernel program's result holds after the run.

  Before the region the program views the [4096, 8, 1024] input as 32768 rows (row `8 * s + b` is
  position `(s, b)`), transposes the weights (entry `(h, o)` of the transpose is entry `(o, h)`), and
  views the bias as one row. Grid point `t` of 32 works on rows `1024 * t` to `1024 * t + 1023`: its
  input block is those rows, the transposed weights and the bias row are whole at every point, and
  its output block is those rows of the [32768, 1] result. Row `r` of what point `t` writes back is the
  one-element softmax of the score of row `1024 * t + r`; the 32 blocks tile the result, so the whole
  result column holds at row `R` the softmax of the score of row `R`. After the region the column is
  viewed as [4096, 8, 1]: position `(s, b)` holds row `8 * s + b`, which is `G` of the arguments.
-/
import proofs.«139557_j48284022342318_1_alg».proof.Proof.Gen.KernelIdeal.Frame
import proofs.«139557_j48284022342318_1_alg».proof.Proof.KernelRow
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelArray

open Cert.KernelIdeal Cert.KernelIdeal.Gen Cert.RowSoftmax Cert.KernelRow
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## The arguments, and the arrays the region finds -/

abbrev xarg (c : Dev nD) : FVec Ideal S4096x8x1024 .f32 := m ((c : Thread nD τ).loc main_arg0)
abbrev warg (c : Dev nD) : FVec Ideal S1024x1024 .f32 := m ((c : Thread nD τ).loc main_arg1)
abbrev barg (c : Dev nD) : FVec Ideal S1024 .f32 := m ((c : Thread nD τ).loc main_arg2)

abbrev rows (c : Dev nD) : FVec Ideal S32768x1024 .f32 := V m c main_v0
abbrev wt (c : Dev nD) : FVec Ideal S1024x1024 .bf16 := V m c main_v2
abbrev brow (c : Dev nD) : FVec Ideal S1x1024 .f32 := V m c main_v3

theorem rows_eq (c : Dev nD) : rows m c = shapeCast S32768x1024 (xarg m c) shapeCasts_S4096x8x1024_S32768x1024 := by
  show StableHlo.after hostOps0 (fun b => m (c, b)) (Proc.devRef .tc main_v0) = _
  after_results
  rfl

theorem wt_eq (c : Dev nD) : wt m c = truncf (F := Ideal) .bf16 (transpose S1024x1024 [1, 0] (warg m c) transposes_S1024x1024_S1024x1024_1_0) bitsLt_bf16_f32 := by
  show StableHlo.after hostOps0 (fun b => m (c, b)) (Proc.devRef .tc main_v2) = _
  after_results

theorem brow_eq (c : Dev nD) : brow m c = shapeCast S1x1024 (barg m c) shapeCasts_S1024_S1x1024 := by
  show StableHlo.after hostOps0 (fun b => m (c, b)) (Proc.devRef .tc main_v3) = _
  after_results
  rfl

/-- Row `R` of the flattened input is position `(R / 8, R % 8)` of the argument. -/
theorem rows_at (c : Dev nD) (R : Fin 32768) (h : Fin 1024) :
    rows m c (ix2 R h) = xarg m c (ix3 (⟨R.val / 8, by have := R.isLt; omega⟩ : Fin 4096) (⟨R.val % 8, by omega⟩ : Fin 8) h) := by
  rw [rows_eq]
  exact shapeCast_apply _ _ _ _ (by
    rw [Shape.rowMajor_val_three, Shape.rowMajor_val_two]
    show (R.val / 8 * 8 + R.val % 8) * 1024 + h.val = R.val * 1024 + h.val
    omega)

/-- Entry `(h, o)` of the transposed weights is entry `(o, h)` of the weights. -/
theorem wt_at (c : Dev nD) (h o : Fin 1024) : wt m c (ix2 h o) = warg m c (ix2 o h) := by
  rw [wt_eq]
  show transpose S1024x1024 [1, 0] (warg m c) transposes_S1024x1024_S1024x1024_1_0 (ix2 h o) = _
  exact transpose_apply _ _ _ _ (ix2 o h) (fun b => by
    match b with
    | ⟨0, _⟩ => rfl
    | ⟨1, _⟩ => rfl)

/-- The bias row's entry `o` is the bias's. -/
theorem brow_at (c : Dev nD) (z : Fin 1) (o : Fin 1024) : brow m c (ix2 z o) = barg m c (ix1 o) := by
  rw [brow_eq]
  exact shapeCast_apply _ _ _ _ (by
    rw [Shape.rowMajor_val_one, Shape.rowMajor_val_two]
    show o.val = z.val * 1024 + o.val
    have := z.isLt; omega)

/-! ## The blocks -/

/-- The printed index maps over the grid: point `t` is on block row `t` of the input and of the result,
    and on the one block of the weights and of the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev xblk (c : Dev nD) (t : Fin cfg0.N) : FVec Ideal S1024x1024 .f32 := iblk m c 0 t
abbrev wblk (c : Dev nD) (t : Fin cfg0.N) : FVec Ideal S1024x1024 .bf16 := iblk m c 1 t
abbrev bblk (c : Dev nD) (t : Fin cfg0.N) : FVec Ideal S1x1024 .f32 := iblk m c 2 t

theorem t_lt (t : Fin cfg0.N) : t.val < 32 := by
  have h := t.isLt
  have h32 : cfg0.N = 32 := N_0
  omega

/-- Row `r` of point `t`'s input block is row `1024 * t + r` of the flattened input. -/
theorem xblk_at (c : Dev nD) (t : Fin cfg0.N) (r h : Fin 1024) :
    xblk m c t (ix2 r h) = rows m c (ix2 (⟨t.val * 1024 + r.val, by have := t_lt t; omega⟩ : Fin 32768) h) := by
  obtain ⟨e0, e1, -⟩ := idx_facts t
  show rows m c (((cfg0.win 0).blk t).view.emb (ix2 r h)) = _
  refine congrArg (rows m c) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * h.val = h.val; omega

/-- The weights' block is the whole transposed matrix at every point. -/
theorem wblk_at (c : Dev nD) (t : Fin cfg0.N) (h o : Fin 1024) : wblk m c t (ix2 h o) = wt m c (ix2 h o) := by
  obtain ⟨-, -, e0, e1, -⟩ := idx_facts t
  show wt m c (((cfg0.win 1).blk t).view.emb (ix2 h o)) = _
  refine congrArg (wt m c) (funext fun a => Fin.ext ?_)
  match a with
  | ⟨0, _⟩ => show win0_1.index t (0 : Fin 2) * 1024 + 1 * h.val = h.val; omega
  | ⟨1, _⟩ => show win0_1.index t (1 : Fin 2) * 1024 + 1 * o.val = o.val; omega

/-- The bias's block is the whole row at every point. -/
theorem bblk_at (c : Dev nD) (t : Fin cfg0.N) (z : Fin 1) (o : Fin 1024) : bblk m c t (ix2 z o) = brow m c (ix2 z o) := by
  obtain ⟨-, -, -, -, e0, e1, -⟩ := idx_facts t
  show brow m c (((cfg0.win 2).blk t).view.emb (ix2 z o)) = _
  refine congrArg (brow m c) (funext fun a => Fin.ext ?_)
  match a with
  | ⟨0, _⟩ => show win0_2.index t (0 : Fin 2) * 1 + 1 * z.val = z.val; omega
  | ⟨1, _⟩ => show win0_2.index t (1 : Fin 2) * 1024 + 1 * o.val = o.val; omega

/-! ## The result column -/

/-- The score of row `R` of the flattened input, from the arguments. -/
def rowScore (c : Dev nD) (R : Fin 32768) : EReal :=
  score (fun h => xarg m c (ix3 (⟨R.val / 8, by have := R.isLt; omega⟩ : Fin 4096) (⟨R.val % 8, by omega⟩ : Fin 8) h))
    (fun o h => warg m c (ix2 o h)) (fun o => barg m c (ix1 o))

/-- The result column: row `R` holds the one-element softmax of row `R`'s score. -/
def column (c : Dev nD) : FVec Ideal S32768x1 .f32 := fun j => soft (rowScore m c (j 0))

/-- The score of row `r` of point `t`'s blocks is the score of row `1024 * t + r`. -/
theorem block_score (c : Dev nD) (t : Fin cfg0.N) (r : Fin 1024) :
    score (fun h => xblk m c t (ix2 r h)) (fun o h => wblk m c t (ix2 h o)) (fun o => bblk m c t (ix2 0 o))
      = rowScore m c (⟨t.val * 1024 + r.val, by have := t_lt t; omega⟩ : Fin 32768) := by
  unfold rowScore
  have e1 : (fun h => xblk m c t (ix2 r h)) = fun h => xarg m c (ix3 (⟨(t.val * 1024 + r.val) / 8, by have := t_lt t; omega⟩ : Fin 4096) (⟨(t.val * 1024 + r.val) % 8, by omega⟩ : Fin 8) h) :=
    funext fun h => (xblk_at m c t r h).trans (rows_at m c _ h)
  have e2 : (fun o h => wblk m c t (ix2 h o)) = fun o h => warg m c (ix2 o h) :=
    funext fun o => funext fun h => (wblk_at m c t h o).trans (wt_at m c h o)
  have e3 : (fun o => bblk m c t (ix2 0 o)) = fun o => barg m c (ix1 o) :=
    funext fun o => (bblk_at m c t 0 o).trans (brow_at m c 0 o)
  rw [e1, e2, e3]

/-- What point `t` writes back is block `t` of the result column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨-, -, -, -, -, -, e0, e1⟩ := idx_facts t
  funext y
  obtain ⟨r, z, rfl⟩ : ∃ (r : Fin 1024) (z : Fin 1), y = ix2 r z := ⟨y 0, y 1, eq_ix2 y⟩
  show k0_pay1 (F := Ideal) (xblk m c t) (wblk m c t) (bblk m c t) (ix2 r z) = column m c (((cfg0.win 3).blk t).view.emb (ix2 r z))
  rw [pay_at, block_score]
  unfold column
  refine congrArg (fun R => soft (rowScore m c R)) (Fin.ext ?_)
  show t.val * 1024 + r.val = win0_3.index t (0 : Fin 2) * 1024 + 1 * r.val
  omega

/-- An index of the result column is in point `t`'s block iff each coordinate is in the block's range. -/
theorem mem_blk (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4).slice (win0_3.rect t)).set ↔ _
  rw [View.set_slice_whole, Rect.mem_set_unit]
  exact Iff.rfl

/-- Every row of the result column is in the block of the point `row / 1024`. -/
theorem cover (i : S32768x1.Idx) : ∃ t : Fin cfg0.N, (cfg0.win 3).flush t = true ∧ i ∈ ((cfg0.win 3).blk t).view.set := by
  have hi0 : (i 0).val < 32768 := (i 0).isLt
  have hi1 : (i 1).val < 1 := (i 1).isLt
  let t : Fin cfg0.N := ⟨(i 0).val / 1024, by rw [show cfg0.N = 32 from N_0]; omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- The result column after the run. -/
theorem final (c : Dev nD) : (dats m 0 c).arrAt 3 cfg0.N = column m c :=
  (dats m 0 c).arrAt_eq_of_cover 3 (column m c) (fun t _ => flushed_eq m c t) cover

/-! ## After the region -/

/-- The program's result: the column viewed as [4096, 8, 1] is `G` of the arguments. -/
theorem result_eq (c : Dev nD) :
    Pipeline.afterTail₀ cfgs (dats m) 0 (V0 m) [hostOps1] c main_v5 = G (xarg m c) (warg m c) (barg m c) := by
  unfold Pipeline.afterTail₀
  show StableHlo.after hostOps1 _ (Proc.devRef .tc main_v5) = _
  after_results
  rw [(Pipeline.withArrays_arr spec0 launch0.win.arr_inj c _ _ 3).trans (final m c)]
  funext i
  obtain ⟨s, b, z, rfl⟩ : ∃ (s : Fin 4096) (b : Fin 8) (z : Fin 1), i = ix3 s b z := ⟨i 0, i 1, i 2, eq_ix3 i⟩
  refine (shapeCast_apply (column m c) _ (ix3 s b z) (ix2 (⟨s.val * 8 + b.val, by omega⟩ : Fin 32768) (0 : Fin 1)) (by
    rw [Shape.rowMajor_val_two, Shape.rowMajor_val_three]
    show (s.val * 8 + b.val) * 1 + 0 = (s.val * 8 + b.val) * 1 + z.val
    have := z.isLt; omega)).trans ?_
  show soft (rowScore m c (⟨s.val * 8 + b.val, by omega⟩ : Fin 32768)) = soft _
  unfold rowScore
  have es : (⟨(s.val * 8 + b.val) / 8, by omega⟩ : Fin 4096) = s := Fin.ext (by show (s.val * 8 + b.val) / 8 = s.val; omega)
  have eb : (⟨(s.val * 8 + b.val) % 8, by omega⟩ : Fin 8) = b := Fin.ext (by show (s.val * 8 + b.val) % 8 = b.val; omega)
  show soft (score (fun h => xarg m c (ix3 (⟨(s.val * 8 + b.val) / 8, by omega⟩ : Fin 4096) (⟨(s.val * 8 + b.val) % 8, by omega⟩ : Fin 8) h)) _ _) = _
  rw [es, eb]

/-! ## The run -/

/-- Every weakly fair execution of the kernel program terminates with its result at `G` of the arguments
    and the arguments unchanged. -/
theorem run : θ_run defs (onTc (τ := τ) (main (F := Ideal))) ⟨m, fun _ => 0, ρ⟩ (fun r => ∀ c : Dev nD,
      r.2.mem ((c.tc : Thread nD τ).loc main_v5) = G (xarg m c) (warg m c) (barg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelArray

end
-- ==== Proof.lean ====
/-
  A linear layer's outputs summed per position, then a softmax over a set with one element: the kernel
  against the plain formula, over the extended reals.

  For position `(s, b)` of a [4096, 8, 1024] input `x`, weights `W` (output feature by input feature) and
  bias `β`, the score is `∑ o, ((∑ h, x[s, b, h] * W[o, h]) + β[o])`, and the result is the softmax of the
  score over the one-element set that holds it: `exp (score - score) / exp (score - score)`.

  The kernel flattens the positions to 32768 rows, works on 1024 rows per grid point with the transposed
  weights and the bias row resident, and writes one column entry per row; the reference contracts the
  whole array at once. Both arrive at the same nested sums, in the same order of nesting, so no
  rearrangement of a sum and no finiteness of the inputs is needed: the two results are one function `G`
  of the arguments (Proof/RowSoftmax.lean), index by index. The maximum over the one-element axis is a
  fold from −∞, which `max` absorbs, and the normalising sum is a sum from 0 with one term; the reference
  takes one more maximum against a splat of −∞, which changes nothing.

  The modules: Proof/RowSoftmax.lean states the score, the one-element softmax and `G`; Proof/RefRow.lean
  reads the reference's operations at an index and finds `G`; Proof/KernelRow.lean reads what the kernel
  body stores at a row of its block; Proof/KernelArray.lean goes from the blocks to the result array
  through the reshapes before and after the region. Here the claims are assembled: the kernel programs
  run and keep their arguments (their generated runs), the reference likewise (its run with the result
  dropped), the idealization rewrote nothing, and the two idealized programs end at `G` of arguments that
  agree.
-/
import proofs.«139557_j48284022342318_1_alg».proof.Defs
import proofs.«139557_j48284022342318_1_alg».proof.Proof.Gen.Kernel
import proofs.«139557_j48284022342318_1_alg».proof.Proof.Gen.Kernel.Skeleton
import proofs.«139557_j48284022342318_1_alg».proof.Proof.Gen.Kernel.Launch
import proofs.«139557_j48284022342318_1_alg».proof.Proof.Gen.Kernel.Points
import proofs.«139557_j48284022342318_1_alg».proof.Proof.Gen.Kernel.Frame
import proofs.«139557_j48284022342318_1_alg».proof.Proof.Gen.KernelIdeal
import proofs.«139557_j48284022342318_1_alg».proof.Proof.Gen.KernelIdeal.Skeleton
import proofs.«139557_j48284022342318_1_alg».proof.Proof.Gen.KernelIdeal.Launch
import proofs.«139557_j48284022342318_1_alg».proof.Proof.Gen.KernelIdeal.Points
import proofs.«139557_j48284022342318_1_alg».proof.Proof.Gen.KernelIdeal.Frame
import proofs.«139557_j48284022342318_1_alg».proof.Proof.Gen.ReferenceIdeal
import proofs.«139557_j48284022342318_1_alg».proof.Proof.Gen.Pre_finite_inputs
import proofs.«139557_j48284022342318_1_alg».proof.Proof.Gen.ReferenceIdeal.Run
import proofs.«139557_j48284022342318_1_alg».proof.Proof.Gen.ReferenceIdeal.Read
import proofs.«139557_j48284022342318_1_alg».proof.Proof.RowSoftmax
import proofs.«139557_j48284022342318_1_alg».proof.Proof.RefRow
import proofs.«139557_j48284022342318_1_alg».proof.Proof.KernelRow
import proofs.«139557_j48284022342318_1_alg».proof.Proof.KernelArray
import Idealize.ShloMosaic.Adequacy
import Idealize.ShloMosaic.Init

noncomputable section

namespace Cert.Proof

open Idealize.ShloMosaic Idealize.ShloMosaic.TcCoe Idealize.SL.Sem

/-- The kernel program, read at the word level, runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with `G` of the arguments in their result. -/
theorem algebraic : Cert.algebraic_KernelIdeal_ReferenceIdeal := by
  intro m ρ m' ρ' _ hagree
  refine ⟨fun c => Cert.RowSoftmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact Cert.KernelArray.run m ρ
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.RefRow.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
